-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S256x2048 : Shape := ⟨2, ![256, 2048]⟩
abbrev S256 : Shape := ⟨1, ![256]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel

variable [Facts]

def fn {F : FTy → Type} [FloatOps F] (main_arg0 : IVec S256x2048 32) (main_arg1 : IVec S256 32) : IVec S_ 1 :=
  let main_c : IVec S_ 32 := constantI S_ 32 0#32
  let main_v0 : IVec S256x2048 32 := broadcastInDim S256x2048 ![] bcast_S_S256x2048 main_c
  let main_v1 : IVec S256x2048 1 := cmpi .sge main_arg0 main_v0
  let main_c_0 : IVec S_ 1 := constantI S_ 1 1#1
  let main_v2 : IVec S_ 1 := (fun x v => Host.reduce IntOp.andi x v reducesTo_S256x2048_S_d0_1 h_S_) main_v1 main_c_0
  main_v2
-- ==== Kernel.lean ====
abbrev S256x2048 : Shape := ⟨2, ![256, 2048]⟩
abbrev S256 : Shape := ⟨1, ![256]⟩
abbrev S256x250x128 : Shape := ⟨3, ![256, 250, 128]⟩
abbrev S8x2048 : Shape := ⟨2, ![8, 2048]⟩
abbrev S8x250x128 : Shape := ⟨3, ![8, 250, 128]⟩
abbrev S4x2048 : Shape := ⟨2, ![4, 2048]⟩
abbrev S4x4096 : Shape := ⟨2, ![4, 4096]⟩
abbrev S1x4096 : Shape := ⟨2, ![1, 4096]⟩
abbrev S1x1x250 : Shape := ⟨3, ![1, 1, 250]⟩
abbrev S1x1x256 : Shape := ⟨3, ![1, 1, 256]⟩
abbrev S4x4096x1 : Shape := ⟨3, ![4, 4096, 1]⟩
abbrev S4x4096x250 : Shape := ⟨3, ![4, 4096, 250]⟩
abbrev S4x4096x256 : Shape := ⟨3, ![4, 4096, 256]⟩
abbrev S4x250x256 : Shape := ⟨3, ![4, 250, 256]⟩
abbrev S4x250x128 : Shape := ⟨3, ![4, 250, 128]⟩
abbrev S256x32000 : Shape := ⟨2, ![256, 32000]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .i32⟩
  | .hbm, ⟨1, _⟩ => ⟨S256, .i32⟩
  | .hbm, ⟨2, _⟩ => ⟨S256x250x128, .f32⟩
  | .hbm, ⟨3, _⟩ => ⟨S256x32000, .f32⟩
  | .local _ .vmem, ⟨0, _⟩ => ⟨S8x2048, .i32⟩
  | .local _ .vmem, ⟨1, _⟩ => ⟨S8x2048, .i32⟩
  | .local _ .vmem, ⟨2, _⟩ => ⟨S8x250x128, .f32⟩
  | .local _ .vmem, ⟨3, _⟩ => ⟨S8x250x128, .f32⟩
  | _, _ => ⟨S256x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x250x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x2048_S8x2048_0_0 : ∀ a, (![0, 0] : Fin 2 → Nat) a + S8x2048.size a ≤ S8x2048.size a
  h_S8x2048 : 0 < S8x2048.numel
  slices_S8x2048_o0_0_S4x2048 : S8x2048.Slices ![0, 0] S4x2048
  slices_S8x2048_o4_0_S4x2048 : S8x2048.Slices ![4, 0] S4x2048
  concatenates_S4x2048_S4x2048_S4x4096_d1 : Shape.Concatenates [S4x2048, S4x2048] S4x4096 1
  natLt_1_32 : 1 < 32
  bitsLt_bf16_f32 : FTy.bits .bf16 < FTy.bits .f32
  iota_S1x4096_d1_w32 : S1x4096.Iotas .tc 32 [1]
  broadcasts_S1x4096_S4x4096 : S1x4096.Broadcasts S4x4096
  iota_S1x1x250_d2_w32 : S1x1x250.Iotas .tc 32 [2]
  iota_S1x1x256_d2_w32 : S1x1x256.Iotas .tc 32 [2]
  shapeCasts_S4x4096_S4x4096x1 : S4x4096.ShapeCasts S4x4096x1
  broadcasts_S4x4096x1_S4x4096x250 : S4x4096x1.Broadcasts S4x4096x250
  broadcasts_S1x1x250_S4x4096x250 : S1x1x250.Broadcasts S4x4096x250
  broadcasts_S4x4096x1_S4x4096x256 : S4x4096x1.Broadcasts S4x4096x256
  broadcasts_S1x1x256_S4x4096x256 : S1x1x256.Broadcasts S4x4096x256
  slices_S4x250x256_o0_0_0_S4x250x128 : S4x250x256.Slices ![0, 0, 0] S4x250x128
  inb_S8x250x128_S4x250x128_0_0_0 : ∀ a, (![0, 0, 0] : Fin 3 → Nat) a + S4x250x128.size a ≤ S8x250x128.size a
  h_S4x250x128 : 0 < S4x250x128.numel
  slices_S4x250x256_o0_0_128_S4x250x128 : S4x250x256.Slices ![0, 0, 128] S4x250x128
  inb_S8x250x128_S4x250x128_4_0_0 : ∀ a, (![4, 0, 0] : Fin 3 → Nat) a + S4x250x128.size a ≤ S8x250x128.size a
  shapeCasts_S256x250x128_S256x32000 : S256x250x128.ShapeCasts S256x32000
  dot_S4x4096x250_S4x4096x256_S4x250x256_1_1_2_2_0_0_wf : DotDims.WF S4x4096x250 S4x4096x256 S4x250x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S256x2048.size a
  hwx0_0 : ∀ i : grid0.Coords, EltTy.bits .i32 = 32 ∨ (Rect.block (s := S256x2048) S8x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x250x128.size a ≤ S256x250x128.size a
  hwx0_1 : ∀ i : grid0.Coords, EltTy.bits .f32 = 32 ∨ (Rect.block (s := S256x250x128) S8x250x128.size (cc0_transform_1 i) (hinb0_1 i)).WholeWords (EltTy.packing .f32)

variable [Facts₀]

def dot_S4x4096x250_S4x4096x256_S4x250x256_1_1_2_2_0_0 : DotDims S4x4096x250 S4x4096x256 S4x250x256 where
  lhsContracting := [1]
  rhsContracting := [1]
  lhsNonContracting := [2]
  rhsNonContracting := [2]
  lhsBatch := [0]
  rhsBatch := [0]
  wf := dot_S4x4096x250_S4x4096x256_S4x250x256_1_1_2_2_0_0_wf

abbrev win0_0 : Pipeline.Window sig grid0 :=
  Pipeline.Window.ofSpec (Memref.whole main_arg0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x250x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x2048 : Shape := ⟨2, ![256, 2048]⟩
abbrev S256 : Shape := ⟨1, ![256]⟩
abbrev S256x1 : Shape := ⟨2, ![256, 1]⟩
abbrev S_ : Shape := ⟨0, ![]⟩
abbrev S256x32000 : Shape := ⟨2, ![256, 32000]⟩
abbrev S256x2048x1 : Shape := ⟨3, ![256, 2048, 1]⟩
abbrev S256x2048x2 : Shape := ⟨3, ![256, 2048, 2]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S256x2048, .i32⟩
  | .hbm, ⟨1, _⟩ => ⟨S256, .i32⟩
  | .hbm, ⟨2, _⟩ => ⟨S256, .i32⟩
  | .hbm, ⟨3, _⟩ => ⟨S256x1, .i32⟩
  | .hbm, ⟨4, _⟩ => ⟨S_, .i32⟩
  | .hbm, ⟨5, _⟩ => ⟨S256x2048, .i32⟩
  | .hbm, ⟨6, _⟩ => ⟨S256x2048, .i1⟩
  | .hbm, ⟨7, _⟩ => ⟨S_, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x32000, .f32⟩
  | .hbm, ⟨15, _⟩ => ⟨S_, .i32⟩
  | .hbm, ⟨16, _⟩ => ⟨S256x1, .i32⟩
  | .hbm, ⟨17, _⟩ => ⟨S256x1, .i1⟩
  | .hbm, ⟨18, _⟩ => ⟨S_, .i32⟩
  | .hbm, ⟨19, _⟩ => ⟨S256x1, .i32⟩
  | .hbm, ⟨20, _⟩ => ⟨S256x1, .i32⟩
  | .hbm, ⟨21, _⟩ => ⟨S256x1, .i32⟩
  | .hbm, ⟨22, _⟩ => ⟨S_, .i32⟩
  | .hbm, ⟨23, _⟩ => ⟨S256x2048, .i32⟩
  | .hbm, ⟨24, _⟩ => ⟨S256x2048, .i1⟩
  | .hbm, ⟨25, _⟩ => ⟨S_, .i32⟩
  | .hbm, ⟨26, _⟩ => ⟨S256x2048, .i32⟩
  | .hbm, ⟨27, _⟩ => ⟨S256x2048, .i32⟩
  | .hbm, ⟨28, _⟩ => ⟨S256x2048, .i32⟩
  | .hbm, ⟨29, _⟩ => ⟨S256x2048, .i32⟩
  | .hbm, ⟨30, _⟩ => ⟨S256x2048x1, .i32⟩
  | .hbm, ⟨31, _⟩ => ⟨S256x2048x1, .i32⟩
  | .hbm, ⟨32, _⟩ => ⟨S256x2048x2, .i32⟩
  | .hbm, ⟨33, _⟩ => ⟨S256x32000, .f32⟩
  | .hbm, ⟨34, _⟩ => ⟨S_, .i32⟩
  | .hbm, ⟨35, _⟩ => ⟨S1, .i32⟩
  | .hbm, ⟨36, _⟩ => ⟨S_, .f32⟩
  | .hbm, ⟨37, _⟩ => ⟨S256, .f32⟩
  | .hbm, ⟨38, _⟩ => ⟨S256x32000, .f32⟩
  | _, _ => ⟨S256x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S256x2048 : S_.BroadcastsInDim S256x2048 (![] : Fin 0 → Fin S256x2048.rank)
  bcast_S_S256x32000 : S_.BroadcastsInDim S256x32000 (![] : Fin 0 → Fin S256x32000.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  bcast_S256x2048_S256x2048x1_0_1 : S256x2048.BroadcastsInDim S256x2048x1 (![0, 1] : Fin 2 → Fin S256x2048x1.rank)
  concatenates_S256x2048x1_S256x2048x1_S256x2048x2_d2 : Shape.Concatenates [S256x2048x1, S256x2048x1] S256x2048x2 2
  bcast_S_S1 : S_.BroadcastsInDim S1 (![] : Fin 0 → Fin S1.rank)
  bcast_S_S256 : S_.BroadcastsInDim S256 (![] : Fin 0 → Fin S256.rank)
  scatter_S256x32000_S256x2048x2_S256x2048_n_01_01_2_wf : ScatterDims.WF S256x32000 S256x2048x2 S256x2048 [] [0, 1] [0, 1] 2
  scatter_S256x32000_S1_S256_0_1_1_0_wf : ScatterDims.WF S256x32000 S1 S256 [0] [1] [1] 0

variable [Facts₀]

def scatter_S256x32000_S256x2048x2_S256x2048_n_01_01_2 : ScatterDims S256x32000 S256x2048x2 S256x2048 where
  updateWindowDims := []
  insertedWindowDims := [0, 1]
  scatterDimsToOperandDims := [0, 1]
  indexVectorDim := 2
  wf := scatter_S256x32000_S256x2048x2_S256x2048_n_01_01_2_wf
def scatter_S256x32000_S1_S256_0_1_1_0 : ScatterDims S256x32000 S1 S256 where
  updateWindowDims := [0]
  insertedWindowDims := [1]
  scatterDimsToOperandDims := [1]
  indexVectorDim := 0
  wf := scatter_S256x32000_S1_S256_0_1_1_0_wf

class Facts : Prop extends Facts₀ where

variable [Facts]
-- ==== Proof.Hist.lean ====
/-
  The specification both programs meet: the per-row histogram of a token matrix, with the padding bin left empty.

  For a row `b` of the 256 × 2048 token matrix and a vocabulary id `v` below 32000, the result holds the number of
  positions `t` of the row whose token, read as an unsigned word, is `v` — except that the bin of the padding id 0 stays
  zero. The count is written as a sum of zeros and ones on the extended reals, which is what both programs compute: one
  as a product of one-hot matrices contracted over the positions, the other as an accumulating scatter of ones.
-/
import Idealize.ShloMosaic.Lib.ValueIdx

noncomputable section

open scoped BigOperators

namespace Cert.Hist

open Idealize.ShloMosaic Idealize.ShloMosaic.ValueIdx

/-- The token matrix's shape: 256 rows of 2048 positions. -/
abbrev Tok : Shape := ⟨2, ![256, 2048]⟩
/-- The result's shape: 256 rows of 32000 bins. -/
abbrev Bins : Shape := ⟨2, ![256, 32000]⟩

/-- One position's contribution to bin `v`: one when the token is `v` and `v` is not the padding id, else zero. -/
def hit (x : BitVec 32) (v : Nat) : EReal := if x.toNat = v ∧ v ≠ 0 then 1 else 0

/-- The histogram: bin `v` of row `b` counts the positions of row `b` holding token `v`; bin 0 counts nothing. -/
def hist (tok : IVec Tok 32) : Bins.Idx → EReal :=
  fun i => ∑ t : Fin 2048, hit (tok (ix2 (n0 := 256) (n1 := 2048) (i 0) t)) (i 1).val

theorem hist_apply (tok : IVec Tok 32) (b : Fin 256) (v : Fin 32000) :
    hist tok (ix2 b v) = ∑ t : Fin 2048, hit (tok (ix2 b t)) v.val := rfl

end Cert.Hist

end
-- ==== Proof.OneHot.lean ====
/-
  One position's entry of the product of one-hot matrices, as a zero or a one.

  The kernel splits a token `x` into a high part `x >> 7` (arithmetic shift) and a low part `x & 127`, so that for a
  bin `v = 128 h + l` with `h < 250` and `l < 128` the token is `v` exactly when its high part is `h` and its low part
  is `l`: the high part of a word is its unsigned value's quotient by 128 whenever that quotient is small, and the low
  part is the remainder. Two rows share one product: the low part of the second row's tokens is offset by 128, so a
  first-row token can only meet the columns below 128 and a second-row token only the columns from 128 on. The entry a
  position contributes is the product of three indicator values — high part is `h`, offset low part is the column,
  token is not the padding id 0 — each a compared bit widened to a word and converted to a float, which on the extended
  reals is 0 or 1.
-/
import Idealize.ShloMosaic.Lib.ValueIdx
import proofs.«416651_j43052752175267_3_alg».proof.Proof.Hist

noncomputable section

namespace Cert.Hist

open Idealize.ShloMosaic Idealize.ShloMosaic.ValueIdx

/-! ## Compared bits -/

theorem cmp_eq_iff (a b : BitVec 32) : IntOp.cmpi .eq a b = 1#1 ↔ a = b := by
  unfold IntOp.cmpi
  by_cases h : a = b
  · subst h; simp [BitVec.ofBool]
  · have hb : (a == b) = false := by simpa using h
    simp [BitVec.ofBool, hb, h]

theorem cmp_ne_iff (a b : BitVec 32) : IntOp.cmpi .ne a b = 1#1 ↔ a ≠ b := by
  unfold IntOp.cmpi
  by_cases h : a = b
  · subst h; simp [BitVec.ofBool]
  · have hb : (a != b) = true := by simpa using h
    simp [BitVec.ofBool, hb, h]

theorem bit_cases (c : BitVec 1) : c = 0#1 ∨ c = 1#1 := by revert c; decide

/-- A compared bit, widened to a word and converted to a float, on the extended reals. -/
def bit (c : BitVec 1) : EReal := (((c.setWidth 32).toInt : ℝ) : EReal)

/-- It is one for a set bit and zero for a clear one. -/
theorem bit_eq (c : BitVec 1) : bit c = if c = 1#1 then 1 else 0 := by
  unfold bit
  rcases bit_cases c with rfl | rfl <;> simp

/-! ## The two parts of a token -/

/-- A small natural number as a word, read signed, is itself. -/
theorem toInt_small (h : Nat) (hh : h < 2 ^ 31) : (BitVec.ofNat 32 h).toInt = (h : Int) := by
  rw [BitVec.toInt_eq_toNat_cond, BitVec.toNat_ofNat]
  have : h % 2 ^ 32 = h := Nat.mod_eq_of_lt (by omega)
  rw [this, if_pos (by omega)]

/-- The high part is `h` exactly when the unsigned value's quotient by 128 is `h`: a word with its top bit set has a
    negative high part and a quotient of at least 2^24, neither of which is a small `h`. -/
theorem high_eq_iff (x : BitVec 32) (h : Nat) (hh : h < 250) :
    IntOp.shrsi .vector x 7#32 = BitVec.ofNat 32 h ↔ x.toNat / 128 = h := by
  unfold IntOp.shrsi
  rw [if_pos (by decide)]
  rw [← BitVec.toInt_inj, toInt_small h (by omega)]
  show (x.sshiftRight 7).toInt = _ ↔ _
  rw [BitVec.toInt_sshiftRight, Int.shiftRight_eq_div_pow, BitVec.toInt_eq_toNat_cond]
  have := x.isLt
  split <;> omega

/-- The low part is the unsigned value's remainder by 128. -/
theorem low_toNat (x : BitVec 32) : (IntOp.andi x 127#32).toNat = x.toNat % 128 := by
  unfold IntOp.andi
  rw [BitVec.toNat_and]
  exact Nat.and_two_pow_sub_one_eq_mod x.toNat 7

/-- The low part offset by `q` is the column `c`, as a statement about unsigned values. -/
theorem low_eq_iff (x q : BitVec 32) (c : Nat) :
    IntOp.addi (IntOp.andi x 127#32) q = BitVec.ofNat 32 c ↔ (x.toNat % 128 + q.toNat) % 2 ^ 32 = c % 2 ^ 32 := by
  rw [← BitVec.toNat_inj]
  show ((IntOp.andi x 127#32) + q).toNat = _ ↔ _
  rw [BitVec.toNat_add, low_toNat, BitVec.toNat_ofNat]

theorem ne_zero_iff (x : BitVec 32) : x ≠ 0#32 ↔ x.toNat ≠ 0 := by
  rw [Ne, ← BitVec.toNat_inj]; rfl

/-! ## One position's entry -/

/-- The entry position contributes at high part `h` and column `c`, its low part offset by `q`. -/
def cell (x q : BitVec 32) (h c : Nat) : EReal :=
  bit (IntOp.cmpi .eq (IntOp.shrsi .vector x 7#32) (BitVec.ofNat 32 h))
    * (bit (IntOp.cmpi .eq (IntOp.addi (IntOp.andi x 127#32) q) (BitVec.ofNat 32 c)) * bit (IntOp.cmpi .ne x 0#32))

/-- A product of indicator values is the indicator value of the conjunction. -/
theorem cell_eq (x q : BitVec 32) (h c : Nat) (hh : h < 250) :
    cell x q h c = if x.toNat / 128 = h ∧ (x.toNat % 128 + q.toNat) % 2 ^ 32 = c % 2 ^ 32 ∧ x.toNat ≠ 0 then 1 else 0 := by
  unfold cell
  rw [bit_eq, bit_eq, bit_eq]
  simp only [cmp_eq_iff, cmp_ne_iff, high_eq_iff x h hh, low_eq_iff, ne_zero_iff]
  by_cases h1 : x.toNat / 128 = h <;> by_cases h2 : (x.toNat % 128 + q.toNat) % 2 ^ 32 = c % 2 ^ 32 <;>
    by_cases h3 : x.toNat = 0 <;> simp [h1, h2, h3]

/-- A first-row token at a column below 128 contributes exactly when it is the bin's token. -/
theorem cell_first_low (x : BitVec 32) (h l : Nat) (hh : h < 250) (hl : l < 128) :
    cell x 0#32 h l = hit x (128 * h + l) := by
  rw [cell_eq x _ h l hh]
  unfold hit
  refine if_congr ?_ rfl rfl
  have := x.isLt
  show (x.toNat / 128 = h ∧ (x.toNat % 128 + 0) % 2 ^ 32 = l % 2 ^ 32 ∧ x.toNat ≠ 0) ↔ _
  omega

/-- A second-row token at a column from 128 on contributes exactly when it is the bin's token. -/
theorem cell_second_high (x : BitVec 32) (h l : Nat) (hh : h < 250) (hl : l < 128) :
    cell x 128#32 h (128 + l) = hit x (128 * h + l) := by
  rw [cell_eq x _ h _ hh]
  unfold hit
  refine if_congr ?_ rfl rfl
  have := x.isLt
  show (x.toNat / 128 = h ∧ (x.toNat % 128 + 128) % 2 ^ 32 = (128 + l) % 2 ^ 32 ∧ x.toNat ≠ 0) ↔ _
  omega

/-- A first-row token never meets a column from 128 on. -/
theorem cell_first_high (x : BitVec 32) (h l : Nat) (hh : h < 250) (hl : l < 128) :
    cell x 0#32 h (128 + l) = 0 := by
  rw [cell_eq x _ h _ hh]
  refine if_neg ?_
  show ¬ (x.toNat / 128 = h ∧ (x.toNat % 128 + 0) % 2 ^ 32 = (128 + l) % 2 ^ 32 ∧ x.toNat ≠ 0)
  omega

/-- A second-row token never meets a column below 128. -/
theorem cell_second_low (x : BitVec 32) (h l : Nat) (hh : h < 250) (hl : l < 128) :
    cell x 128#32 h l = 0 := by
  rw [cell_eq x _ h l hh]
  refine if_neg ?_
  show ¬ (x.toNat / 128 = h ∧ (x.toNat % 128 + 128) % 2 ^ 32 = l % 2 ^ 32 ∧ x.toNat ≠ 0)
  omega

end Cert.Hist

end
-- ==== Proof.PairedProduct.lean ====
/-
  The kernel's product of one-hot matrices, read at an entry.

  For an 8-row block of tokens the kernel lays block rows p and p + 4 side by side as one row of 4096 positions, builds
  for every position a one-hot row over the 250 high parts and a one-hot row over 256 columns (the low part, offset by
  128 on the positions of the second row, and zeroed at padding tokens), and contracts the two over the positions. Entry
  (p, h, c) of the product is therefore the sum over the 4096 positions of the three-indicator product of one position;
  the first 2048 positions only reach the columns below 128 and the last 2048 only the columns from 128 on, so the left
  half of the product is block row p's histogram and the right half block row p + 4's.
-/
import proofs.«416651_j43052752175267_3_alg».proof.Proof.Gen.KernelIdeal.Skeleton
import proofs.«416651_j43052752175267_3_alg».proof.Proof.OneHot
import Idealize.ShloMosaic.Lib.Pipeline.Value
import Idealize.ShloMosaic.PureOps.Ideal.Laws

noncomputable section

open scoped BigOperators

namespace Cert.KernelHist

open Cert.KernelIdeal Cert.KernelIdeal.Gen Idealize.ShloMosaic Idealize.ShloMosaic.ValueIdx Cert.Hist

section Layout
variable {α : Type}

/-- A [4, 4096] array viewed [4, 4096, 1] and repeated along a last axis of extent n reads (p, k) at (p, k, c). -/
theorem column_apply {n : Nat} (x : (⟨2, ![4, 4096]⟩ : Shape).Idx → α)
    (hs : (⟨2, ![4, 4096]⟩ : Shape).ShapeCasts ⟨3, ![4, 4096, 1]⟩)
    (hb : (⟨3, ![4, 4096, 1]⟩ : Shape).Broadcasts ⟨3, ![4, 4096, n]⟩) (p : Fin 4) (k : Fin 4096) (c : Fin n) :
    broadcastTo ⟨3, ![4, 4096, n]⟩ (shapeCast ⟨3, ![4, 4096, 1]⟩ x hs) hb (ix3 p k c) = x (ix2 p k) := by
  rw [broadcastTo_apply _ hb (ix3 p k c) (ix3 p k 0) (fun a => match a with
    | ⟨0, _⟩ => rfl
    | ⟨1, _⟩ => rfl
    | ⟨2, _⟩ => rfl)]
  exact shapeCast_apply x hs (ix3 p k 0) (ix2 p k) (by
    rw [Shape.rowMajor_val_two, Shape.rowMajor_val_three]
    show p.val * 4096 + k.val = (p.val * 4096 + k.val) * 1 + 0
    omega)

/-- A [1, 1, n] lane vector repeated over the two leading axes reads its lane c at (p, k, c). -/
theorem lane_apply {n : Nat} (x : (⟨3, ![1, 1, n]⟩ : Shape).Idx → α)
    (hb : (⟨3, ![1, 1, n]⟩ : Shape).Broadcasts ⟨3, ![4, 4096, n]⟩) (hn : n ≠ 1) (p : Fin 4) (k : Fin 4096) (c : Fin n) :
    broadcastTo ⟨3, ![4, 4096, n]⟩ x hb (ix3 p k c) = x (ix3 0 0 c) :=
  broadcastTo_apply _ hb (ix3 p k c) (ix3 0 0 c) (fun a => match a with
    | ⟨0, _⟩ => rfl
    | ⟨1, _⟩ => rfl
    | ⟨2, _⟩ => by show c.val = if n = 1 then 0 else c.val; rw [if_neg hn])

/-- A [1, 4096] row repeated over the leading axis reads its entry k at (p, k). -/
theorem row_apply (x : (⟨2, ![1, 4096]⟩ : Shape).Idx → α)
    (hb : (⟨2, ![1, 4096]⟩ : Shape).Broadcasts ⟨2, ![4, 4096]⟩) (p : Fin 4) (k : Fin 4096) :
    broadcastTo ⟨2, ![4, 4096]⟩ x hb (ix2 p k) = x (ix2 0 k) :=
  broadcastTo_apply _ hb (ix2 p k) (ix2 0 k) (fun a => match a with
    | ⟨0, _⟩ => rfl
    | ⟨1, _⟩ => rfl)

/-- The two halves of an 8-row block side by side: row p of the [4, 4096] array holds block row p in its first 2048
    entries and block row p + 4 in the rest. -/
theorem paired_rows_apply (v0 : (⟨2, ![8, 2048]⟩ : Shape).Idx → α)
    (h0 : (⟨2, ![8, 2048]⟩ : Shape).Slices ![0, 0] ⟨2, ![4, 2048]⟩) (h4 : (⟨2, ![8, 2048]⟩ : Shape).Slices ![4, 0] ⟨2, ![4, 2048]⟩)
    (hc : Shape.Concatenates [(⟨2, ![4, 2048]⟩ : Shape), ⟨2, ![4, 2048]⟩] ⟨2, ![4, 4096]⟩ 1) (p : Fin 4) (k : Fin 4096) :
    concatenate ⟨2, ![4, 4096]⟩ 1 [⟨⟨2, ![4, 2048]⟩, extractStridedSlice ⟨2, ![4, 2048]⟩ ![0, 0] v0 h0⟩,
        ⟨⟨2, ![4, 2048]⟩, extractStridedSlice ⟨2, ![4, 2048]⟩ ![4, 0] v0 h4⟩] hc (ix2 p k)
      = if hk : k.val < 2048 then v0 (ix2 ⟨p.val, by omega⟩ ⟨k.val, hk⟩)
        else v0 (ix2 ⟨p.val + 4, by omega⟩ ⟨k.val - 2048, by omega⟩) := by
  by_cases hk : k.val < 2048
  · rw [dif_pos hk, concatenate_pair_apply_left 1 _ _ hc (ix2 p k) rfl (ix2 p ⟨k.val, hk⟩) (fun b => match b with
      | ⟨0, _⟩ => rfl
      | ⟨1, _⟩ => rfl)]
    exact extractStridedSlice_apply _ v0 h0 _ (ix2 ⟨p.val, by omega⟩ ⟨k.val, hk⟩) (fun a => match a with
      | ⟨0, _⟩ => by show p.val = 0 + p.val; omega
      | ⟨1, _⟩ => by show k.val = 0 + k.val; omega)
  · rw [dif_neg hk, concatenate_pair_apply_right 1 _ _ hc (ix2 p k) rfl rfl (ix2 p ⟨k.val - 2048, by omega⟩)
      (fun b => match b with
        | ⟨0, _⟩ => fun _ => rfl
        | ⟨1, _⟩ => fun hb => absurd rfl hb)
      (by show (k.val - 2048) + 2048 = k.val; omega)]
    exact extractStridedSlice_apply _ v0 h4 _ (ix2 ⟨p.val + 4, by omega⟩ ⟨k.val - 2048, by omega⟩) (fun a => match a with
      | ⟨0, _⟩ => by show p.val + 4 = 4 + p.val; omega
      | ⟨1, _⟩ => by show k.val - 2048 = 0 + (k.val - 2048); omega)
end Layout

/-! ## Pointwise integer operations at an index -/
section Pointwise
variable {s : Shape} {w : Nat}
theorem cmpi_apply (q : CmpIPredicate) (a b : IVec s w) (i : s.Idx) : cmpi q a b i = IntOp.cmpi q (a i) (b i) := rfl
theorem shrsi_apply (a b : IVec s w) (i : s.Idx) : shrsi a b i = IntOp.shrsi .vector (a i) (b i) := rfl
theorem andi_apply (a b : IVec s w) (i : s.Idx) : andi a b i = IntOp.andi (a i) (b i) := rfl
theorem addi_apply (a b : IVec s w) (i : s.Idx) : addi a b i = IntOp.addi (a i) (b i) := rfl
theorem muli_apply (a b : IVec s w) (i : s.Idx) : muli a b i = IntOp.muli (a i) (b i) := rfl
end Pointwise

/-- The row-parity offset: 0 on the first 2048 positions, 128 on the rest. -/
theorem parity_word : ∀ k : Fin 4096, IntOp.muli 128#32 ((IntOp.cmpi .sge (BitVec.ofNat 32 k.val) 2048#32).setWidth 32)
    = if k.val < 2048 then 0#32 else 128#32 := by decide +kernel

/-! ## The product's index maps, coordinate by coordinate -/
abbrev D := dot_S4x4096x250_S4x4096x256_S4x250x256_1_1_2_2_0_0

theorem lhs_0 (j : S4x250x256.Idx) (k : D.contr.Idx) : (D.lhsIdx j k 0).val = (j 0).val := by
  unfold DotDims.lhsIdx
  rw [dif_pos (show (0 : Fin 3) ∈ D.lhsBatch by decide)]
  rfl
theorem lhs_1 (j : S4x250x256.Idx) (k : D.contr.Idx) : (D.lhsIdx j k 1).val = (k ⟨0, by decide⟩).val :=
  DotDims.lhsIdx_val_of_single D rfl j k
theorem lhs_2 (j : S4x250x256.Idx) (k : D.contr.Idx) : (D.lhsIdx j k 2).val = (j 1).val := by
  unfold DotDims.lhsIdx
  rw [dif_neg (show ¬ (2 : Fin 3) ∈ D.lhsBatch by decide), dif_pos (show (2 : Fin 3) ∈ D.lhsNonContracting by decide)]
  rfl
theorem rhs_0 (j : S4x250x256.Idx) (k : D.contr.Idx) : (D.rhsIdx j k 0).val = (j 0).val := by
  unfold DotDims.rhsIdx
  rw [dif_pos (show (0 : Fin 3) ∈ D.rhsBatch by decide)]
  rfl
theorem rhs_1 (j : S4x250x256.Idx) (k : D.contr.Idx) : (D.rhsIdx j k 1).val = (k ⟨0, by decide⟩).val :=
  DotDims.rhsIdx_val_of_single D rfl j k
theorem rhs_2 (j : S4x250x256.Idx) (k : D.contr.Idx) : (D.rhsIdx j k 2).val = (j 2).val := by
  unfold DotDims.rhsIdx
  rw [dif_neg (show ¬ (2 : Fin 3) ∈ D.rhsBatch by decide), dif_pos (show (2 : Fin 3) ∈ D.rhsNonContracting by decide)]
  rfl

/-- The contraction runs over the 4096 positions. -/
abbrev positions : D.contr.Idx ≃ Fin 4096 := contrEquiv1 D 4096 rfl rfl

/-- At entry (p, h, c) and position k the left operand is read at (p, k, h) … -/
theorem lhsIdx_eq (p : Fin 4) (h : Fin 250) (c : Fin 256) (k : Fin 4096) :
    D.lhsIdx (ix3 p h c) (positions.symm k) = ix3 p k h := by
  funext a; refine Fin.ext ?_
  match a with
  | ⟨0, _⟩ => exact lhs_0 _ _
  | ⟨1, _⟩ => exact (lhs_1 _ _).trans (contrEquiv1_symm_val D 4096 rfl rfl k)
  | ⟨2, _⟩ => exact lhs_2 _ _

/-- … and the right operand at (p, k, c). -/
theorem rhsIdx_eq (p : Fin 4) (h : Fin 250) (c : Fin 256) (k : Fin 4096) :
    D.rhsIdx (ix3 p h c) (positions.symm k) = ix3 p k c := by
  funext a; refine Fin.ext ?_
  match a with
  | ⟨0, _⟩ => exact rhs_0 _ _
  | ⟨1, _⟩ => exact (rhs_1 _ _).trans (contrEquiv1_symm_val D 4096 rfl rfl k)
  | ⟨2, _⟩ => exact rhs_2 _ _

theorem ix2_snd {n0 n1 : Nat} (a : Fin n0) (b : Fin n1) : ix2 a b 1 = b := rfl
theorem ix3_trd {n0 n1 n2 : Nat} (a : Fin n0) (b : Fin n1) (c : Fin n2) : ix3 a b c 2 = c := rfl

/-- The token at position k of paired row p: block row p on the first 2048 positions, block row p + 4 on the rest. -/
def paired (v0 : (⟨2, ![8, 2048]⟩ : Shape).Idx → BitVec 32) (p : Fin 4) (k : Fin 4096) : BitVec 32 :=
  if hk : k.val < 2048 then v0 (ix2 ⟨p.val, by omega⟩ ⟨k.val, hk⟩)
  else v0 (ix2 ⟨p.val + 4, by omega⟩ ⟨k.val - 2048, by omega⟩)

/-- THE PRODUCT AT AN ENTRY: the sum over the positions of one position's entry. -/
theorem product_apply (v0 : Vec Ideal S8x2048 .i32) (p : Fin 4) (h : Fin 250) (c : Fin 256) :
    k0_pay1 (F := Ideal) v0 (ix3 p h c)
      = ∑ k : Fin 4096, cell (paired v0 p k) (if k.val < 2048 then 0#32 else 128#32) h.val c.val := by
  unfold k0_pay1
  simp only [matmul]
  rw [Ideal.matmul_constant_zero_apply, ← Equiv.sum_comp positions.symm]
  refine Finset.sum_congr rfl (fun k _ => ?_)
  rw [lhsIdx_eq, rhsIdx_eq]
  simp only [mulf_apply, truncf_apply, sitofp_apply, extui_apply, cmpi_apply, shrsi_apply, andi_apply, addi_apply,
    muli_apply, broadcast_apply, column_apply, lane_apply, row_apply, iota_single_apply, paired_rows_apply, ix2_snd,
    ix3_trd, parity_word]
  rw [lane_apply _ _ (by decide), lane_apply _ _ (by decide)]
  rw [iota_single_apply, iota_single_apply, iota_single_apply]
  simp only [ix2_snd, ix3_trd, parity_word]
  rfl

/-- A sum over the 4096 positions is the sum over the first row's 2048 plus the sum over the second row's. -/
theorem sum_positions (f : Fin 4096 → EReal) :
    ∑ k : Fin 4096, f k = ∑ t : Fin 2048, f ⟨t.val, by omega⟩ + ∑ t : Fin 2048, f ⟨2048 + t.val, by omega⟩ :=
  Fin.sum_univ_add (a := 2048) (b := 2048) f

theorem paired_first (v0 : (⟨2, ![8, 2048]⟩ : Shape).Idx → BitVec 32) (p : Fin 4) (t : Fin 2048) :
    paired v0 p ⟨t.val, by omega⟩ = v0 (ix2 ⟨p.val, by omega⟩ t) := by
  unfold paired
  rw [dif_pos (show t.val < 2048 from t.isLt)]

theorem paired_second (v0 : (⟨2, ![8, 2048]⟩ : Shape).Idx → BitVec 32) (p : Fin 4) (t : Fin 2048) :
    paired v0 p ⟨2048 + t.val, by omega⟩ = v0 (ix2 ⟨p.val + 4, by omega⟩ t) := by
  unfold paired
  rw [dif_neg (show ¬ (2048 + t.val < 2048) by omega)]
  exact congrArg (fun q => v0 (ix2 ⟨p.val + 4, by omega⟩ q)) (Fin.ext (by show 2048 + t.val - 2048 = t.val; omega))

/-- THE LEFT HALF: column l < 128 of (p, h) counts block row p's tokens equal to 128 h + l. -/
theorem product_left (v0 : Vec Ideal S8x2048 .i32) (p : Fin 4) (h : Fin 250) (l : Fin 128) :
    k0_pay1 (F := Ideal) v0 (ix3 p h ⟨l.val, by omega⟩)
      = ∑ t : Fin 2048, hit (v0 (ix2 ⟨p.val, by omega⟩ t)) (128 * h.val + l.val) := by
  rw [product_apply, sum_positions]
  have h2 : ∑ t : Fin 2048, cell (paired v0 p ⟨2048 + t.val, by omega⟩)
      (if (2048 + t.val) < 2048 then 0#32 else 128#32) h.val l.val = 0 :=
    Finset.sum_eq_zero (fun t _ => by
      rw [if_neg (by omega)]
      exact cell_second_low _ _ _ h.isLt l.isLt)
  rw [h2, add_zero]
  refine Finset.sum_congr rfl (fun t _ => ?_)
  show cell (paired v0 p ⟨t.val, _⟩) (if t.val < 2048 then 0#32 else 128#32) h.val l.val = _
  rw [if_pos t.isLt, paired_first]
  exact cell_first_low _ _ _ h.isLt l.isLt

/-- THE RIGHT HALF: column 128 + l of (p, h) counts block row p + 4's tokens equal to 128 h + l. -/
theorem product_right (v0 : Vec Ideal S8x2048 .i32) (p : Fin 4) (h : Fin 250) (l : Fin 128) :
    k0_pay1 (F := Ideal) v0 (ix3 p h ⟨128 + l.val, by omega⟩)
      = ∑ t : Fin 2048, hit (v0 (ix2 ⟨p.val + 4, by omega⟩ t)) (128 * h.val + l.val) := by
  rw [product_apply, sum_positions]
  have h1 : ∑ t : Fin 2048, cell (paired v0 p ⟨t.val, by omega⟩)
      (if t.val < 2048 then 0#32 else 128#32) h.val (128 + l.val) = 0 :=
    Finset.sum_eq_zero (fun t _ => by
      rw [if_pos t.isLt]
      exact cell_first_high _ _ _ h.isLt l.isLt)
  rw [h1, zero_add]
  refine Finset.sum_congr rfl (fun t _ => ?_)
  show cell (paired v0 p ⟨2048 + t.val, _⟩) (if 2048 + t.val < 2048 then 0#32 else 128#32) h.val (128 + l.val) = _
  rw [if_neg (by omega), paired_second]
  exact cell_second_high _ _ _ h.isLt l.isLt

end Cert.KernelHist

end
-- ==== Proof.BlockHist.lean ====
/-
  What the kernel body leaves in an output block: the histogram of the block's 8 token rows.

  The body stores the left half of the product of one-hot matrices (columns below 128) into block rows 0 to 3 and the
  right half into block rows 4 to 7. Paired row p of the product holds block row p's histogram in its left half and
  block row p + 4's in its right half, so both stores are restrictions of ONE function of the block: entry (r, h, l)
  is the number of positions of block row r whose token is 128 h + l, the padding id's bin left empty.
-/
import proofs.«416651_j43052752175267_3_alg».proof.Proof.Gen.KernelIdeal.Frame
import proofs.«416651_j43052752175267_3_alg».proof.Proof.PairedProduct

noncomputable section

open scoped BigOperators

namespace Cert.KernelHist

open Cert.KernelIdeal Cert.KernelIdeal.Gen Idealize.ShloMosaic Idealize.ShloMosaic.ValueIdx Cert.Hist

/-- The histogram of an 8-row block of tokens, laid out [8, 250, 128]: bin 128 h + l of block row r at (r, h, l). -/
def blockHist (x0 : (⟨2, ![8, 2048]⟩ : Shape).Idx → BitVec 32) : (⟨3, ![8, 250, 128]⟩ : Shape).Idx → EReal :=
  fun y => ∑ t : Fin 2048, hit (x0 (ix2 (n0 := 8) (n1 := 2048) (y 0) t)) (128 * (y 1).val + (y 2).val)

theorem zero_offsets2 : (![0, 0] : Fin 2 → Nat) = fun _ => 0 := funext fun a => by fin_cases a <;> rfl

/-- The left half of the product, as stored into block rows 0 to 3, is the block's histogram there. -/
theorem left_piece (x0 : Vec Ideal S8x2048 .i32) (x : S4x250x128.Idx) :
    k0_pay2 (F := Ideal) x0 x = blockHist x0 (r0_1.emb x) := by
  unfold k0_pay2
  rw [extractStridedSlice_apply _ (k0_pay1 (F := Ideal) x0) _ x (ix3 (x 0) (x 1) ⟨(x 2).val, by have h2 : (x 2).val < 128 := (x 2).isLt; omega⟩)
    (fun a => match a with
      | ⟨0, _⟩ => by show (x 0).val = 0 + (x 0).val; omega
      | ⟨1, _⟩ => by show (x 1).val = 0 + (x 1).val; omega
      | ⟨2, _⟩ => by show (x 2).val = 0 + (x 2).val; omega)]
  rw [product_left x0 (x 0) (x 1) (x 2)]
  unfold blockHist
  refine Finset.sum_congr rfl (fun t _ => ?_)
  have e1 : (ix2 (⟨(x 0).val, by have h0 : (x 0).val < 4 := (x 0).isLt; omega⟩ : Fin 8) t : (⟨2, ![8, 2048]⟩ : Shape).Idx)
      = ix2 (n0 := 8) (n1 := 2048) (r0_1.emb x 0) t := by
    funext a; refine Fin.ext ?_
    match a with
    | ⟨0, _⟩ => show (x 0).val = 0 + 1 * (x 0).val; omega
    | ⟨1, _⟩ => rfl
  have e2 : 128 * (x 1).val + (x 2).val = 128 * (r0_1.emb x 1).val + (r0_1.emb x 2).val := by
    show _ = 128 * (0 + 1 * (x 1).val) + (0 + 1 * (x 2).val); omega
  rw [e1, e2]

/-- The right half of the product, as stored into block rows 4 to 7, is the block's histogram there. -/
theorem right_piece (x0 : Vec Ideal S8x2048 .i32) (x : S4x250x128.Idx) :
    k0_pay3 (F := Ideal) x0 x = blockHist x0 (r0_2.emb x) := by
  unfold k0_pay3
  rw [extractStridedSlice_apply _ (k0_pay1 (F := Ideal) x0) _ x (ix3 (x 0) (x 1) ⟨128 + (x 2).val, by have h2 : (x 2).val < 128 := (x 2).isLt; omega⟩)
    (fun a => match a with
      | ⟨0, _⟩ => by show (x 0).val = 0 + (x 0).val; omega
      | ⟨1, _⟩ => by show (x 1).val = 0 + (x 1).val; omega
      | ⟨2, _⟩ => rfl)]
  rw [product_right x0 (x 0) (x 1) (x 2)]
  unfold blockHist
  refine Finset.sum_congr rfl (fun t _ => ?_)
  have e1 : (ix2 (⟨(x 0).val + 4, by have h0 : (x 0).val < 4 := (x 0).isLt; omega⟩ : Fin 8) t : (⟨2, ![8, 2048]⟩ : Shape).Idx)
      = ix2 (n0 := 8) (n1 := 2048) (r0_2.emb x 0) t := by
    funext a; refine Fin.ext ?_
    match a with
    | ⟨0, _⟩ => show (x 0).val + 4 = 4 + 1 * (x 0).val; omega
    | ⟨1, _⟩ => rfl
  have e2 : 128 * (x 1).val + (x 2).val = 128 * (r0_2.emb x 1).val + (r0_2.emb x 2).val := by
    show _ = 128 * (0 + 1 * (x 1).val) + (0 + 1 * (x 2).val); omega
  rw [e1, e2]

/-- THE BLOCK AFTER THE BODY is the histogram of the block's tokens. -/
theorem out_block (x0 : Vec Ideal S8x2048 .i32) : out0_1 (F := Ideal) x0 = blockHist x0 := by
  funext y
  unfold out0_1
  rw [View.ld_unit_zero (S := S8x2048) zero_offsets2]
  refine View.canon_apply_of_pieces (Val := Elt Ideal) (blockHist x0) _ ?_ y (cover0_1 _ _ y)
  intro p hp x
  simp only [List.mem_cons, List.mem_nil_iff, or_false] at hp
  rcases hp with rfl | rfl
  · exact right_piece x0 x
  · exact left_piece x0 x

end Cert.KernelHist

end
-- ==== Proof.KernelHist.lean ====
/-
  The kernel's result array: the histogram of the whole token matrix.

  The grid has 32 points; point t reads token rows 8 t to 8 t + 7 and writes back rows 8 t to 8 t + 7 of a
  [256, 250, 128] array, each written block the histogram of the rows it read. The blocks tile the array (row r is in
  point r / 8's block), so after the run the array holds, at (b, h, l), the count of row b's tokens equal to 128 h + l.
  The host then views the array as [256, 32000]: entry (b, v) is entry (b, v / 128, v % 128) of the array, the two
  having the same row-major position, which is bin v of row b's histogram.
-/
import proofs.«416651_j43052752175267_3_alg».proof.Proof.Gen.KernelIdeal.Frame
import proofs.«416651_j43052752175267_3_alg».proof.Proof.BlockHist
import Idealize.ShloMosaic.Lib.Pipeline.Value
import Idealize.ShloMosaic.Lib.StableHlo.Run

set_option maxRecDepth 16384

noncomputable section

open scoped BigOperators

namespace Cert.KernelHist

open Cert.KernelIdeal Cert.KernelIdeal.Gen Idealize.ShloMosaic Idealize.ShloMosaic.TcCoe Idealize.ShloMosaic.ValueIdx
open Idealize.SL.Sem Cert.Hist
open Idealize.ShloMosaic.Pipeline (Dat)

variable (m : (ℓ : Loc nD τ sig) → Buf (Elt Ideal) ℓ) (ρ : Dev nD → PrngReg)

/-- The histogram laid out [256, 250, 128]: bin 128 h + l of row b at (b, h, l). -/
def hist3 (tok : (⟨2, ![256, 2048]⟩ : Shape).Idx → BitVec 32) : (⟨3, ![256, 250, 128]⟩ : Shape).Idx → EReal :=
  fun i => ∑ t : Fin 2048, hit (tok (ix2 (n0 := 256) (n1 := 2048) (i 0) t)) (128 * (i 1).val + (i 2).val)

/-- The printed index maps over the grid: point t reads and writes block t along the rows, block 0 elsewhere. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT t WRITES BACK is block t of the whole histogram of the token matrix as the region finds it. -/
theorem flushed_eq (c : Dev nD) (t : Fin cfg0.N) :
    (dats m 0 c).flushed 1 t = ((cfg0.win 1).blk t).view.read (Elt Ideal) (hist3 (V m c main_arg0)) := by
  show (cfg0.win 1).cut (grid0.coords t) ((dats m 0 c).after 1 t) = _
  rw [after0_1]
  obtain ⟨e0, e1, e2, e3, e4⟩ := idx_facts t
  funext j
  refine (congrFun (out_block (iblk m c 0 t)) j).trans ?_
  show blockHist (iblk m c 0 t) j = hist3 (V m c main_arg0) (((cfg0.win 1).blk t).view.emb j)
  unfold blockHist hist3
  refine Finset.sum_congr rfl (fun s _ => ?_)
  show hit (V m c main_arg0 (((cfg0.win 0).blk t).view.emb (ix2 (n0 := 8) (n1 := 2048) (j 0) s))) _ = _
  have hj0 : (j 0).val < 8 := (j 0).isLt
  have hj1 : (j 1).val < 250 := (j 1).isLt
  have hj2 : (j 2).val < 128 := (j 2).isLt
  have i1 : ((cfg0.win 0).blk t).view.emb (ix2 (n0 := 8) (n1 := 2048) (j 0) s)
      = ix2 (n0 := 256) (n1 := 2048) (((cfg0.win 1).blk t).view.emb j 0) s := by
    funext a; refine Fin.ext ?_
    match a with
    | ⟨0, _⟩ => show win0_0.index t (0 : Fin 2) * 8 + 1 * (j 0).val = win0_1.index t (0 : Fin 3) * 8 + 1 * (j 0).val; omega
    | ⟨1, _⟩ => show win0_0.index t (1 : Fin 2) * 2048 + 1 * s.val = s.val; omega
  have i2 : 128 * (j 1).val + (j 2).val
      = 128 * (((cfg0.win 1).blk t).view.emb j 1).val + (((cfg0.win 1).blk t).view.emb j 2).val := by
    show _ = 128 * (win0_1.index t (1 : Fin 3) * 250 + 1 * (j 1).val) + (win0_1.index t (2 : Fin 3) * 128 + 1 * (j 2).val)
    omega
  rw [i1, i2]

/-- An index of the array is in point t's block iff each coordinate is in the block's range on its axis. -/
theorem mem_blk (t : Fin cfg0.N) (i : S256x250x128.Idx) :
    i ∈ ((cfg0.win 1).blk t).view.set ↔ ∀ a : Fin 3, win0_1.index t a * S8x250x128.size a ≤ (i a).val
      ∧ (i a).val < win0_1.index t a * S8x250x128.size a + S8x250x128.size a := by
  show i ∈ ((View.whole main_v0).slice (win0_1.rect t)).set ↔ _
  rw [View.set_slice_whole, Rect.mem_set_unit]
  exact Iff.rfl

/-- The written blocks tile the array: row r is in point r / 8's block. -/
theorem covered (i : S256x250x128.Idx) :
    ∃ t : Fin cfg0.N, (cfg0.win 1).flush t = true ∧ i ∈ ((cfg0.win 1).blk t).view.set := by
  have hi0 : (i 0).val < 256 := (i 0).isLt
  have hi1 : (i 1).val < 250 := (i 1).isLt
  have hi2 : (i 2).val < 128 := (i 2).isLt
  have hN : cfg0.N = 32 := N_0
  refine ⟨⟨(i 0).val / 8, by rw [hN]; omega⟩, flush0_1 _, ?_⟩
  rw [mem_blk]
  obtain ⟨-, -, e2, e3, e4⟩ := idx_facts ⟨(i 0).val / 8, by rw [hN]; omega⟩
  intro a
  match a with
  | ⟨0, _⟩ =>
    show win0_1.index _ (0 : Fin 3) * 8 ≤ (i 0).val ∧ (i 0).val < win0_1.index _ (0 : Fin 3) * 8 + 8
    rw [e2]; show (i 0).val / 8 * 8 ≤ (i 0).val ∧ (i 0).val < (i 0).val / 8 * 8 + 8; omega
  | ⟨1, _⟩ =>
    show win0_1.index _ (1 : Fin 3) * 250 ≤ (i 1).val ∧ (i 1).val < win0_1.index _ (1 : Fin 3) * 250 + 250
    rw [e3]; omega
  | ⟨2, _⟩ =>
    show win0_1.index _ (2 : Fin 3) * 128 ≤ (i 2).val ∧ (i 2).val < win0_1.index _ (2 : Fin 3) * 128 + 128
    rw [e4]; omega

/-- THE ARRAY after the run: the whole histogram of the token matrix. -/
theorem final (c : Dev nD) : (dats m 0 c).arrAt 1 cfg0.N = hist3 (m ((c : Thread nD τ).loc main_arg0)) := by
  rw [(dats m 0 c).arrAt_eq_of_cover 1 (hist3 (V m c main_arg0)) (fun t _ => flushed_eq m c t) covered, V_main_arg0]

/-- The [256, 250, 128] histogram viewed [256, 32000] is the histogram: (b, v) and (b, v / 128, v % 128) share a
    row-major position. -/
theorem hist3_cast (tok : (⟨2, ![256, 2048]⟩ : Shape).Idx → BitVec 32) (hs : S256x250x128.ShapeCasts S256x32000) :
    shapeCast S256x32000 (hist3 tok) hs = hist tok := by
  funext i
  have hi0 : (i 0).val < 256 := (i 0).isLt
  have hi1 : (i 1).val < 32000 := (i 1).isLt
  rw [shapeCast_apply (hist3 tok) hs i (ix3 (i 0) ⟨(i 1).val / 128, by omega⟩ ⟨(i 1).val % 128, by omega⟩) (by
    rw [Shape.rowMajor_val_three, Shape.rowMajor_val_two]
    show ((i 0).val * 250 + (i 1).val / 128) * 128 + (i 1).val % 128 = (i 0).val * 32000 + (i 1).val
    omega)]
  unfold hist3 hist
  refine Finset.sum_congr rfl (fun t _ => ?_)
  show hit (tok (ix2 (i 0) t)) (128 * ((i 1).val / 128) + (i 1).val % 128) = hit (tok (ix2 (i 0) t)) (i 1).val
  rw [Nat.div_add_mod]

/-- What the host's view of the array holds after the run. -/
theorem tail_eq (c : Dev nD) :
    Pipeline.afterTail₀ cfgs (dats m) 0 (V0 m) [hostOps1] c main_v1 = hist (m ((c : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = hist3 (m ((c : Thread nD τ).loc main_arg0)) :=
    (Pipeline.withArrays_arr spec0 launch0.win.arr_inj c _ _ 1).trans (final m c)
  funext i
  show shapeCast S256x32000 (Pipeline.withArrays (cfgs 0).spec c (V0 m c) (fun w => (dats m 0 c).arrAt w (cfgs 0).N)
      (Proc.devRef .tc main_v0)) shapeCasts_S256x250x128_S256x32000 i = _
  rw [hw, hist3_cast]

/-- THE KERNEL'S RUN with its result named: every weakly fair execution terminates with the result array at the
    histogram of the token matrix and the arguments unchanged. -/
theorem run : θ_run defs (onTc (τ := τ) (main (F := Ideal))) ⟨m, fun _ => 0, ρ⟩ fun r => ∀ c : Dev nD,
      r.2.mem ((c.tc : Thread nD τ).loc main_v1) = hist (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelHist

end
-- ==== Proof.RefIndex.lean ====
/-
  What the reference's accumulating scatter is fed, element by element.

  The start indices are a grid of pairs, one per position (b, t) of the token matrix. The first entry of a pair is the
  row number b: it is built as an iota, to which the row count is added where the iota is negative, and a row number
  below 256 is never negative as a signed word. The second entry is the token at (b, t): the vocabulary size is added to
  a negative token, and under the hypothesis that every token is nonnegative as a signed word nothing is added. The
  value scattered from position (b, t) is zero when the token is the padding id 0 and one otherwise.
-/
import proofs.«416651_j43052752175267_3_alg».proof.Proof.Gen.ReferenceIdeal.Read
import Idealize.ShloMosaic.Lib.StableHlo.Predicate
import Idealize.ShloMosaic.Lib.IdealHost
import Idealize.ShloMosaic.Lib.ValueIdx

noncomputable section

namespace Cert.RefHist

open Idealize.ShloMosaic Idealize.ShloMosaic.ValueIdx
open Cert.ReferenceIdeal Cert.ReferenceIdeal.Read

/-! ## Signed words that are not negative -/

/-- A word that is not negative when read signed reads the same signed and unsigned. -/
theorem toInt_eq_toNat_of_nonneg {a : BitVec 32} (h : 0 ≤ a.toInt) : a.toInt = (a.toNat : Int) := by
  have hlt := a.isLt
  rw [BitVec.toInt_eq_toNat_cond] at h ⊢
  split at h
  · rw [if_pos (by assumption)]
  · omega

/-- A word that is not negative is not below zero in the signed order. -/
theorem slt_zero_of_nonneg {a : BitVec 32} (h : 0 ≤ a.toInt) : IntOp.cmpi .slt a 0#32 = 0#1 := by
  refine eq_zero_of_ne_one fun e => ?_
  unfold IntOp.cmpi at e
  have e' := (StableHlo.Predicate.ofBool_eq_one_iff _).mp e
  rw [BitVec.slt, decide_eq_true_eq] at e'
  have h0 : (0#32 : BitVec 32).toInt = 0 := by decide
  omega

variable {F : FTy → Type} [FloatOps F]

/-! ## The first entry of a pair: the row number -/

/-- The column of row numbers holds, at row b, the word b. -/
theorem rowIota_apply (k : S256x1.Idx) : val_main_v1 (F := F) k = BitVec.ofNat 32 (k 0).val := by
  rw [val_main_v1_apply, val_main_v0_apply]

/-- Adding the row count where the row number is negative changes nothing: none is. -/
theorem rowNumber_apply (k : S256x1.Idx) : val_main_v11 (F := F) k = BitVec.ofNat 32 (k 0).val := by
  rw [val_main_v11_apply, val_main_v8_apply, val_main_v7_apply, val_main_c_2_apply, rowIota_apply]
  have hk : (k 0).val < 2 ^ 31 := lt_trans (k 0).isLt (by decide)
  rw [slt_zero_of_nonneg (by rw [StableHlo.Predicate.toInt_ofNat_small _ hk]; exact Int.natCast_nonneg _), select_zero]

/-! ## The second entry of a pair: the token -/

/-- Adding the vocabulary size where the token is negative changes nothing when none is. -/
theorem tokenIndex_apply (x0 : IVec S256x2048 32) (hnn : ∀ i, 0 ≤ (x0 i).toInt) (i : S256x2048.Idx) :
    val_main_v16 (F := F) x0 i = x0 i := by
  rw [val_main_v16_apply, val_main_v13_apply, val_main_v12_apply, val_main_c_4_apply, slt_zero_of_nonneg (hnn i),
    select_zero]

/-! ## The grid of pairs -/

/-- The first entry of the pair at (b, t) is the word b. -/
theorem pair_row (x0 : IVec S256x2048 32) (b : Fin 256) (t : Fin 2048) :
    val_main_v20 (F := F) x0 (ix3 b t 0) = BitVec.ofNat 32 b.val := by
  unfold val_main_v20
  rw [concatenate_pair_apply_left (t := S256x2048x2) (s₁ := S256x2048x1) (s₂ := S256x2048x1) (2 : Fin 3) _ _ _
    (ix3 b t (0 : Fin 2)) rfl (ix3 b t (0 : Fin 1))
    (fun a => match a with | ⟨0, _⟩ => rfl | ⟨1, _⟩ => rfl | ⟨2, _⟩ => rfl)]
  rw [val_main_v18_apply, val_main_v17_apply, rowNumber_apply]

/-- The second entry of the pair at (b, t) is the token there, when no token is negative. -/
theorem pair_col (x0 : IVec S256x2048 32) (hnn : ∀ i, 0 ≤ (x0 i).toInt) (b : Fin 256) (t : Fin 2048) :
    val_main_v20 (F := F) x0 (ix3 b t 1) = x0 (ix2 b t) := by
  unfold val_main_v20
  rw [concatenate_pair_apply_right (t := S256x2048x2) (s₁ := S256x2048x1) (s₂ := S256x2048x1) (2 : Fin 3) _ _ _
    (ix3 b t (1 : Fin 2)) rfl rfl (ix3 b t (0 : Fin 1))
    (fun a => match a with
      | ⟨0, _⟩ => fun _ => rfl
      | ⟨1, _⟩ => fun _ => rfl
      | ⟨2, _⟩ => fun h => absurd rfl h) rfl]
  rw [val_main_v19_apply, tokenIndex_apply x0 hnn]
  refine congrArg x0 ?_
  funext a
  match a with
  | ⟨0, _⟩ => rfl
  | ⟨1, _⟩ => rfl

/-! ## The values scattered -/

/-- The value scattered from a position: zero on the padding id, one on every other token. -/
theorem contrib_apply (x0 : IVec S256x2048 32) (i : S256x2048.Idx) :
    val_main_v5 (F := Ideal) x0 i = (if x0 i = 0#32 then 0 else 1 : EReal) := by
  rw [val_main_v5_apply, val_main_v4_apply, val_main_v3_apply, val_main_v2_apply, val_main_c_apply,
    val_main_call0_v0_apply, val_main_cst_apply, val_main_call0_v1_apply, val_main_cst_0_apply]
  show Scalar.select _ (Ideal.ofBits .f32 0x00000000#32) (Ideal.ofBits .f32 0x3F800000#32) = _
  rw [Ideal.ofBits_zero_f32, Ideal.ofBits_one_f32]
  by_cases h : x0 i = 0#32
  · rw [if_pos h, StableHlo.Predicate.cmpi_eq_iff.mpr h, select_one]
  · rw [if_neg h, eq_zero_of_ne_one (mt StableHlo.Predicate.cmpi_eq_iff.mp h), select_zero]

end Cert.RefHist

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterGrid.lean ====
/-
  An accumulating scatter whose start indices form a grid of pairs, read at an index on the extended reals.

  The operand is a matrix [R, C]. The start indices are an array [M, N, 2]: position (m, n) of the grid holds a pair
  (row, column), the pair lying along the last axis. The updates are a matrix [M, N], and update (m, n) lands on the
  operand cell its pair names, read signed and not clamped; a pair outside the operand names no cell and its update is
  dropped. So the result at cell (r, c) is the operand's cell plus the sum of the updates whose pair is (r, c).
-/
import Idealize.ShloMosaic.Lib.ValueIdx
import proofs.«416651_j43052752175267_3_alg».proof.Proof.LibScatterRead

noncomputable section

open scoped BigOperators

namespace Cert.ScatterGrid

open Idealize.ShloMosaic Idealize.ShloMosaic.ValueIdx

/-- The dimension numbers of the scatter of a grid of pairs onto cells: no window axes, both operand axes inserted and
    named, in order, by the two entries of a start index, the index vector along axis 2. -/
abbrev gridDims (R C M N : Nat)
    (wf : ScatterDims.WF ⟨2, ![R, C]⟩ ⟨3, ![M, N, 2]⟩ ⟨2, ![M, N]⟩ [] [0, 1] [0, 1] 2) :
    ScatterDims ⟨2, ![R, C]⟩ ⟨3, ![M, N, 2]⟩ ⟨2, ![M, N]⟩ where
  updateWindowDims := []
  insertedWindowDims := [0, 1]
  scatterDimsToOperandDims := [0, 1]
  indexVectorDim := 2
  wf := wf

variable {R C M N w : Nat} (wf : ScatterDims.WF ⟨2, ![R, C]⟩ ⟨3, ![M, N, 2]⟩ ⟨2, ![M, N]⟩ [] [0, 1] [0, 1] 2)

/-- On the row axis update (m, n) starts at the first entry of its pair. -/
theorem grid_start0 (idx : IVec ⟨3, ![M, N, 2]⟩ w) (m : Fin M) (n : Fin N) :
    (gridDims R C M N wf).start (ix2 m n) idx 0 = (idx (ix3 m n 0)).toInt := by
  unfold ScatterDims.start
  rw [dif_pos (show (0 : Fin 2) ∈ ([0, 1] : List (Fin 2)) by decide)]
  have hsi : (gridDims R C M N wf).siIdx (ix2 m n)
      ⟨List.idxOf (0 : Fin 2) (gridDims R C M N wf).scatterDimsToOperandDims,
        List.idxOf_lt_length_iff.2 (show (0 : Fin 2) ∈ ([0, 1] : List (Fin 2)) by decide)⟩ = ix3 m n 0 := by
    funext b; refine Fin.ext ?_
    match b with
    | ⟨0, _⟩ => rfl
    | ⟨1, _⟩ => rfl
    | ⟨2, _⟩ => rfl
  rw [hsi]

/-- On the column axis it starts at the second entry. -/
theorem grid_start1 (idx : IVec ⟨3, ![M, N, 2]⟩ w) (m : Fin M) (n : Fin N) :
    (gridDims R C M N wf).start (ix2 m n) idx 1 = (idx (ix3 m n 1)).toInt := by
  unfold ScatterDims.start
  rw [dif_pos (show (1 : Fin 2) ∈ ([0, 1] : List (Fin 2)) by decide)]
  have hsi : (gridDims R C M N wf).siIdx (ix2 m n)
      ⟨List.idxOf (1 : Fin 2) (gridDims R C M N wf).scatterDimsToOperandDims,
        List.idxOf_lt_length_iff.2 (show (1 : Fin 2) ∈ ([0, 1] : List (Fin 2)) by decide)⟩ = ix3 m n 1 := by
    funext b; refine Fin.ext ?_
    match b with
    | ⟨0, _⟩ => rfl
    | ⟨1, _⟩ => rfl
    | ⟨2, _⟩ => rfl
  rw [hsi]

/-- There is no window: both operand axes are inserted. -/
theorem grid_window (j : (⟨2, ![M, N]⟩ : Shape).Idx) (a : Fin 2) : (gridDims R C M N wf).window j a = 0 := by
  unfold ScatterDims.window
  refine dif_neg ?_
  show ¬ (a ∈ ((List.finRange 2).filter (· ∉ ([0, 1] : List (Fin 2)))))
  revert a
  decide

/-- Update (m, n) lands on cell (r, c) exactly when its pair, read signed, is (r, c). -/
theorem grid_lands_iff (idx : IVec ⟨3, ![M, N, 2]⟩ w) (m : Fin M) (n : Fin N) (r : Fin R) (c : Fin C) :
    (gridDims R C M N wf).resultIdx? (ix2 m n) idx = some (ix2 r c) ↔
      (idx (ix3 m n 0)).toInt = (r.val : Int) ∧ (idx (ix3 m n 1)).toInt = (c.val : Int) := by
  rw [Cert.SparseMM.resultIdx?_eq_some_iff]
  constructor
  · intro h
    have h0 := h 0
    have h1 := h 1
    rw [grid_start0, grid_window, Nat.cast_zero, add_zero] at h0
    rw [grid_start1, grid_window, Nat.cast_zero, add_zero] at h1
    exact ⟨h0, h1⟩
  · intro h a
    match a with
    | ⟨0, _⟩ =>
      show (gridDims R C M N wf).start (ix2 m n) idx 0 + ((gridDims R C M N wf).window (ix2 m n) 0 : Int) = (r.val : Int)
      rw [grid_start0, grid_window, Nat.cast_zero, add_zero]; exact h.1
    | ⟨1, _⟩ =>
      show (gridDims R C M N wf).start (ix2 m n) idx 1 + ((gridDims R C M N wf).window (ix2 m n) 1 : Int) = (c.val : Int)
      rw [grid_start1, grid_window, Nat.cast_zero, add_zero]; exact h.2

/-- THE SCATTER OF A GRID OF PAIRS READ AT (r, c): the operand's cell plus, over every grid position, the update there
    when its pair is (r, c) and nothing otherwise. -/
theorem scatterAdd_grid_apply {φ : FTy} (x : FVec Ideal ⟨2, ![R, C]⟩ φ) (idx : IVec ⟨3, ![M, N, 2]⟩ w)
    (upd : FVec Ideal ⟨2, ![M, N]⟩ φ) (r : Fin R) (c : Fin C) :
    Host.scatterAdd (gridDims R C M N wf) x idx upd (ix2 r c)
      = x (ix2 r c) + ∑ m : Fin M, ∑ n : Fin N,
          if (idx (ix3 m n 0)).toInt = (r.val : Int) ∧ (idx (ix3 m n 1)).toInt = (c.val : Int)
          then upd (ix2 m n) else 0 := by
  show Ideal.hostScatterAdd (gridDims R C M N wf) x idx upd (ix2 r c) = _
  unfold Ideal.hostScatterAdd
  refine congrArg (x (ix2 r c) + ·) ?_
  rw [Finset.sum_filter, sum_idx2]
  refine Finset.sum_congr rfl fun m _ => Finset.sum_congr rfl fun n _ => ?_
  exact if_congr (grid_lands_iff wf idx m n r c) rfl rfl

end Cert.ScatterGrid

end
-- ==== Proof.LibScatterFill.lean ====
/-
  An overwriting scatter whose updates are all one value, read at an index.

  An overwriting scatter takes its update indices in row-major order; each replaces the operand element its start index
  plus its window coordinate names, and is dropped when that is outside the operand. When every update is the same value
  the order does not matter: the result holds that value wherever some update lands, and the operand elsewhere. This is
  proved for any dimension numbers, then read for the layout that fills one column of a matrix: the operand is [R, C],
  there is one start index, a single column number, and the updates are a vector [R] whose entry k lands on row k of
  that column.
-/
import Idealize.ShloMosaic.Lib.ValueIdx
import proofs.«416651_j43052752175267_3_alg».proof.Proof.LibScatterRead

noncomputable section

namespace Cert.ScatterFill

open Idealize.ShloMosaic Idealize.ShloMosaic.ValueIdx

/-! ## Any dimension numbers -/

section Any
variable {α : Type} {s si u : Shape} {w : Nat} (d : ScatterDims s si u) (idx : IVec si w) (c : α)

/-- One update of the value c: the element update number n lands on becomes c, the rest stay. -/
def step (r : s.Idx → α) (n : Fin u.numel) : s.Idx → α :=
  match d.resultIdx? (u.rowMajor.symm n) idx with
  | some i => fun i' => if i' = i then c else r i'
  | none => r

/-- After the updates of a list, an element is c when one of them landed on it, else what it was. -/
theorem foldl_step_apply (i' : s.Idx) (l : List (Fin u.numel)) : ∀ x : s.Idx → α,
    (l.foldl (step d idx c) x) i'
      = if ∃ n ∈ l, d.resultIdx? (u.rowMajor.symm n) idx = some i' then c else x i' := by
  induction l with
  | nil =>
    intro x
    rw [List.foldl_nil, if_neg]
    rintro ⟨n, hn, _⟩
    cases hn
  | cons n l ih =>
    intro x
    rw [List.foldl_cons, ih]
    by_cases hl : ∃ m ∈ l, d.resultIdx? (u.rowMajor.symm m) idx = some i'
    · obtain ⟨m, hm, e⟩ := hl
      rw [if_pos ⟨m, hm, e⟩, if_pos ⟨m, List.mem_cons_of_mem _ hm, e⟩]
    · rw [if_neg hl]
      by_cases hn : d.resultIdx? (u.rowMajor.symm n) idx = some i'
      · rw [if_pos ⟨n, List.mem_cons_self, hn⟩]
        unfold step
        rw [hn]
        exact if_pos rfl
      · rw [if_neg]
        · unfold step
          cases hr : d.resultIdx? (u.rowMajor.symm n) idx with
          | none => rfl
          | some i =>
            show (if i' = i then c else x i') = x i'
            refine if_neg fun e => hn ?_
            rw [hr, e]
        · rintro ⟨m, hm, e⟩
          rcases List.mem_cons.1 hm with rfl | hm
          · exact hn e
          · exact hl ⟨m, hm, e⟩

/-- THE OVERWRITING SCATTER OF ONE VALUE READ AT AN INDEX: that value where some update lands, the operand elsewhere. -/
theorem scatter_const_apply (x : s.Idx → α) (i' : s.Idx) :
    Host.scatter d (fun _ b => b) x idx (fun _ => c) i'
      = if ∃ j : u.Idx, d.resultIdx? j idx = some i' then c else x i' := by
  have h : Host.scatter d (fun _ b => b) x idx (fun _ => c) = (List.finRange u.numel).foldl (step d idx c) x := rfl
  rw [h, foldl_step_apply]
  refine if_congr ⟨?_, ?_⟩ rfl rfl
  · rintro ⟨n, _, e⟩
    exact ⟨_, e⟩
  · rintro ⟨j, e⟩
    refine ⟨u.rowMajor j, List.mem_finRange _, ?_⟩
    rw [Equiv.symm_apply_apply]
    exact e

end Any

/-! ## One column of a matrix -/

section Column

/-- The dimension numbers of the scatter that writes a column: the updates' one axis is the window along the operand's
    rows, the operand's column axis is inserted and named by the one entry of the one start index. -/
abbrev colDims (R C : Nat) (wf : ScatterDims.WF ⟨2, ![R, C]⟩ ⟨1, ![1]⟩ ⟨1, ![R]⟩ [0] [1] [1] 0) :
    ScatterDims ⟨2, ![R, C]⟩ ⟨1, ![1]⟩ ⟨1, ![R]⟩ where
  updateWindowDims := [0]
  insertedWindowDims := [1]
  scatterDimsToOperandDims := [1]
  indexVectorDim := 0
  wf := wf

variable {R C w : Nat} (wf : ScatterDims.WF ⟨2, ![R, C]⟩ ⟨1, ![1]⟩ ⟨1, ![R]⟩ [0] [1] [1] 0)

/-- On the row axis every update starts at zero: no entry names it. -/
theorem col_start0 (idx : IVec ⟨1, ![1]⟩ w) (j : (⟨1, ![R]⟩ : Shape).Idx) :
    (colDims R C wf).start j idx 0 = 0 := by
  unfold ScatterDims.start
  exact dif_neg (show ¬ ((0 : Fin 2) ∈ ([1] : List (Fin 2))) by decide)

/-- On the column axis every update starts at the one start index. -/
theorem col_start1 (idx : IVec ⟨1, ![1]⟩ w) (j : (⟨1, ![R]⟩ : Shape).Idx) :
    (colDims R C wf).start j idx 1 = (idx (ix1 0)).toInt := by
  unfold ScatterDims.start
  rw [dif_pos (show (1 : Fin 2) ∈ ([1] : List (Fin 2)) by decide)]
  have hsi : (colDims R C wf).siIdx j ⟨List.idxOf (1 : Fin 2) (colDims R C wf).scatterDimsToOperandDims,
      List.idxOf_lt_length_iff.2 (show (1 : Fin 2) ∈ ([1] : List (Fin 2)) by decide)⟩ = ix1 0 := by
    funext b; refine Fin.ext ?_
    match b with
    | ⟨0, _⟩ => rfl
  rw [hsi]

/-- On the row axis the window coordinate is the update's own position. -/
theorem col_window0 (k : Fin R) : (colDims R C wf).window (ix1 k) 0 = k.val := by
  unfold ScatterDims.window
  have h0 : (0 : Fin 2) ∈ (colDims R C wf).sKept :=
    show (0 : Fin 2) ∈ ((List.finRange 2).filter (· ∉ ([1] : List (Fin 2)))) by decide
  rw [dif_pos h0]
  rfl

/-- The column axis is inserted: no window coordinate there. -/
theorem col_window1 (j : (⟨1, ![R]⟩ : Shape).Idx) : (colDims R C wf).window j 1 = 0 := by
  unfold ScatterDims.window
  exact dif_neg (show ¬ ((1 : Fin 2) ∈ ((List.finRange 2).filter (· ∉ ([1] : List (Fin 2))))) by decide)

/-- Update k lands on (r, c) exactly when k is r and the start index, read signed, is c. -/
theorem col_lands_iff (idx : IVec ⟨1, ![1]⟩ w) (k : Fin R) (r : Fin R) (c : Fin C) :
    (colDims R C wf).resultIdx? (ix1 k) idx = some (ix2 r c) ↔
      k = r ∧ (idx (ix1 0)).toInt = (c.val : Int) := by
  rw [Cert.SparseMM.resultIdx?_eq_some_iff]
  constructor
  · intro h
    have h0 := h 0
    have h1 := h 1
    rw [col_start0, col_window0, zero_add] at h0
    rw [col_start1, col_window1, Nat.cast_zero, add_zero] at h1
    exact ⟨Fin.ext (by exact_mod_cast h0), h1⟩
  · intro h a
    match a with
    | ⟨0, _⟩ =>
      show (colDims R C wf).start (ix1 k) idx 0 + ((colDims R C wf).window (ix1 k) 0 : Int) = (r.val : Int)
      rw [col_start0, col_window0, zero_add, h.1]
    | ⟨1, _⟩ =>
      show (colDims R C wf).start (ix1 k) idx 1 + ((colDims R C wf).window (ix1 k) 1 : Int) = (c.val : Int)
      rw [col_start1, col_window1, Nat.cast_zero, add_zero]; exact h.2

/-- THE COLUMN FILL READ AT (r, c): the value on the column the start index names, the operand elsewhere. -/
theorem scatter_col_const_apply {α : Type} (x : (⟨2, ![R, C]⟩ : Shape).Idx → α) (idx : IVec ⟨1, ![1]⟩ w) (v : α)
    (r : Fin R) (c : Fin C) :
    Host.scatter (colDims R C wf) (fun _ b => b) x idx (fun _ => v) (ix2 r c)
      = if (idx (ix1 0)).toInt = (c.val : Int) then v else x (ix2 r c) := by
  rw [scatter_const_apply]
  refine if_congr ⟨?_, ?_⟩ rfl rfl
  · rintro ⟨j, e⟩
    rw [eq_ix1 j] at e
    exact ((col_lands_iff wf idx (j 0) r c).mp e).2
  · intro e
    exact ⟨ix1 r, (col_lands_iff wf idx r r c).mpr ⟨rfl, e⟩⟩

end Column

end Cert.ScatterFill

end
-- ==== Proof.RefHist.lean ====
/-
  The reference computes the histogram.

  The accumulating scatter starts from zeros and adds, at cell (b, v), the value scattered from every position whose
  pair is (b, v). The pair at (b', t) is (b', token), so only row b contributes, and position t of that row contributes
  when its token is v: one, unless the token is the padding id. The second scatter then overwrites column 0 with zeros:
  its one start index is the column number 0 and its updates are all zero. Column 0 of the histogram is empty by
  definition, and on any other column v a token equal to v is not the padding id, so both sides count the positions of
  row b that hold v.

  The precondition is printed as a program too: a signed comparison of every token with zero, reduced by "and" over both
  axes. That the result is one says that every comparison came out one, which is the sign hypothesis used above.
-/
import proofs.«416651_j43052752175267_3_alg».proof.Proof.RefIndex
import proofs.«416651_j43052752175267_3_alg».proof.Proof.LibScatterGrid
import proofs.«416651_j43052752175267_3_alg».proof.Proof.LibScatterFill
import proofs.«416651_j43052752175267_3_alg».proof.Proof.Hist
import proofs.«416651_j43052752175267_3_alg».proof.Pre_any_inputs
import Idealize.ShloMosaic.Lib.ReduceAll

noncomputable section

open scoped BigOperators

namespace Cert.RefHist

open Idealize.ShloMosaic Idealize.ShloMosaic.ValueIdx
open Cert.ReferenceIdeal Cert.ReferenceIdeal.Read

/-! ## The accumulating scatter at a cell -/

/-- Cell (b, v) after the accumulating scatter: over the positions of row b holding the token v, one for each that is
    not the padding id. -/
theorem counts_apply (x0 : IVec S256x2048 32) (hnn : ∀ i, 0 ≤ (x0 i).toInt) (b : Fin 256) (v : Fin 32000) :
    val_main_v21 (F := Ideal) x0 (ix2 b v)
      = ∑ t : Fin 2048, if (x0 (ix2 b t)).toNat = v.val then (if x0 (ix2 b t) = 0#32 then 0 else 1 : EReal) else 0 := by
  unfold val_main_v21
  have hd : scatter_S256x32000_S256x2048x2_S256x2048_n_01_01_2
      = Cert.ScatterGrid.gridDims 256 32000 256 2048 Gen.scatter_S256x32000_S256x2048x2_S256x2048_n_01_01_2_wf := rfl
  rw [hd, Cert.ScatterGrid.scatterAdd_grid_apply]
  have h6 : val_main_v6 (F := Ideal) (ix2 b v) = 0 := by
    rw [val_main_v6_apply, val_main_cst_1_apply]
    exact Ideal.ofBits_zero_f32
  rw [h6, zero_add, Finset.sum_eq_single b]
  · refine Finset.sum_congr rfl fun t _ => ?_
    rw [pair_row, pair_col x0 hnn, contrib_apply,
      StableHlo.Predicate.toInt_ofNat_small _ (lt_trans b.isLt (by decide)), toInt_eq_toNat_of_nonneg (hnn _)]
    refine if_congr ⟨?_, ?_⟩ rfl rfl
    · rintro ⟨_, h⟩
      exact_mod_cast h
    · intro h
      exact ⟨rfl, by exact_mod_cast h⟩
  · intro m _ hm
    refine Finset.sum_eq_zero fun t _ => ?_
    rw [pair_row, StableHlo.Predicate.toInt_ofNat_small _ (lt_trans m.isLt (by decide))]
    refine if_neg ?_
    rintro ⟨h, _⟩
    exact hm (Fin.ext (by exact_mod_cast h))
  · intro h
    exact absurd (Finset.mem_univ b) h

/-! ## The column fill at a cell -/

/-- The result at (b, v): zero on column 0, the accumulated cell on every other column. -/
theorem result_apply (x0 : IVec S256x2048 32) (b : Fin 256) (v : Fin 32000) :
    val_main_v24 (F := Ideal) x0 (ix2 b v)
      = if v.val = 0 then 0 else val_main_v21 (F := Ideal) x0 (ix2 b v) := by
  unfold val_main_v24
  have h23 : val_main_v23 (F := Ideal) = fun _ => (0 : EReal) := by
    funext k
    rw [val_main_v23_apply, val_main_cst_7_apply]
    exact Ideal.ofBits_zero_f32
  have hd : scatter_S256x32000_S1_S256_0_1_1_0
      = Cert.ScatterFill.colDims 256 32000 Gen.scatter_S256x32000_S1_S256_0_1_1_0_wf := rfl
  rw [h23, hd, Cert.ScatterFill.scatter_col_const_apply]
  have h22 : (val_main_v22 (F := Ideal) (ix1 0)).toInt = 0 := by
    rw [val_main_v22_apply, val_main_c_6_apply]
    decide
  rw [h22]
  refine if_congr ⟨?_, ?_⟩ rfl rfl
  · intro h
    exact_mod_cast h.symm
  · intro h
    exact_mod_cast h.symm

/-! ## The reference is the histogram -/

theorem ref_eq_hist (x0 : IVec Cert.ReferenceIdeal.S256x2048 32) (hnn : ∀ i, 0 ≤ (x0 i).toInt) :
    Cert.ReferenceIdeal.Read.val_main_v24 (F := Ideal) x0 = Cert.Hist.hist x0 := by
  funext i
  obtain ⟨b, v, rfl⟩ : ∃ (b : Fin 256) (v : Fin 32000), i = ix2 b v := ⟨i 0, i 1, eq_ix2 i⟩
  rw [result_apply, Cert.Hist.hist_apply]
  by_cases hv : v.val = 0
  · rw [if_pos hv]
    refine (Finset.sum_eq_zero fun t _ => ?_).symm
    unfold Cert.Hist.hit
    exact if_neg fun h => h.2 hv
  · rw [if_neg hv, counts_apply x0 hnn]
    refine Finset.sum_congr rfl fun t _ => ?_
    unfold Cert.Hist.hit
    by_cases h : (x0 (ix2 b t)).toNat = v.val
    · rw [if_pos h, if_pos (show (x0 (ix2 b t)).toNat = v.val ∧ v.val ≠ 0 from ⟨h, hv⟩)]
      refine if_neg fun hx => ?_
      rw [hx] at h
      have h0 : (0#32 : BitVec 32).toNat = 0 := rfl
      omega
    · rw [if_neg h, if_neg fun hh => h hh.1]

/-! ## The printed precondition says no token is negative -/

theorem nonneg_of_pre [Cert.Pre_any_inputs.Facts] (a0 : IVec Cert.Pre_any_inputs.S256x2048 32)
    (a1 : IVec Cert.Pre_any_inputs.S256 32)
    (h : Cert.Pre_any_inputs.fn (F := Ideal) a0 a1 = fun _ => 1#1) : ∀ i, 0 ≤ (a0 i).toInt := by
  intro i
  have e := congrFun h ix0
  unfold Cert.Pre_any_inputs.fn at e
  haveI : Subsingleton Cert.Pre_any_inputs.S_.Idx := ⟨fun a b => funext fun d => d.elim0⟩
  have hi := Host.reduce_andi_all _ _ _ _ ix0 e i
  have hc : cmpi .sge a0 (broadcastInDim Cert.Pre_any_inputs.S256x2048 ![] Cert.Pre_any_inputs.Facts.bcast_S_S256x2048
      (constantI Cert.Pre_any_inputs.S_ 32 0#32)) i = IntOp.cmpi .sge (a0 i) 0#32 := by
    show IntOp.cmpi .sge (a0 i) _ = _
    rw [broadcastInDim_scalar_apply]
    rfl
  rw [hc] at hi
  have hi2 : BitVec.ofBool ((0#32 : BitVec 32).sle (a0 i)) = 1#1 := hi
  have hi' := (StableHlo.Predicate.ofBool_eq_one_iff _).mp hi2
  rw [BitVec.sle, decide_eq_true_eq] at hi'
  have h0 : (0#32 : BitVec 32).toInt = 0 := by decide
  omega

end Cert.RefHist

end
-- ==== Proof.lean ====
/-
  A histogram by a product of one-hot matrices against a histogram by an accumulating scatter.

  Both programs map a 256 × 2048 matrix of tokens to a 256 × 32000 matrix of counts: entry (b, v) is the number of
  positions of row b whose token is v, with the bin of the padding id 0 left at zero. The kernel factors a bin as
  v = 128 h + l, builds per position a one-hot row over the high parts and one over the low parts (zeroed at padding
  tokens), and contracts them over the positions, two token rows per product; the reference adds a one per non-padding
  token at the cell (row, token) and then clears column 0. On the extended reals both are the same sum of zeros and
  ones (Proof/Hist.lean).

  The two agree where every token is non-negative as a signed word, which the precondition asks: the reference reads a
  negative token as an index counted from the end of the vocabulary axis and counts it there, while the kernel's high
  part of a negative word is negative and meets no bin. A token of 32000 or more is outside the axis for both and
  counted by neither, so no upper bound is needed.

  The frames are the generated ones; the kernel's result is read off its frame run block by block (Proof/OneHot.lean,
  Proof/PairedProduct.lean, Proof/BlockHist.lean, Proof/KernelHist.lean), the reference's off its generated run stage by
  stage with the two scatters read at an index by hand (Proof/LibScatterRead.lean, Proof/LibScatterGrid.lean,
  Proof/LibScatterFill.lean, Proof/RefIndex.lean, Proof/RefHist.lean).
-/
import proofs.«416651_j43052752175267_3_alg».proof.Defs
import proofs.«416651_j43052752175267_3_alg».proof.Proof.Gen.Kernel
import proofs.«416651_j43052752175267_3_alg».proof.Proof.Gen.Kernel.Skeleton
import proofs.«416651_j43052752175267_3_alg».proof.Proof.Gen.Kernel.Launch
import proofs.«416651_j43052752175267_3_alg».proof.Proof.Gen.Kernel.Points
import proofs.«416651_j43052752175267_3_alg».proof.Proof.Gen.Kernel.Frame
import proofs.«416651_j43052752175267_3_alg».proof.Proof.Gen.KernelIdeal
import proofs.«416651_j43052752175267_3_alg».proof.Proof.Gen.KernelIdeal.Skeleton
import proofs.«416651_j43052752175267_3_alg».proof.Proof.Gen.KernelIdeal.Launch
import proofs.«416651_j43052752175267_3_alg».proof.Proof.Gen.KernelIdeal.Points
import proofs.«416651_j43052752175267_3_alg».proof.Proof.Gen.KernelIdeal.Frame
import proofs.«416651_j43052752175267_3_alg».proof.Proof.Gen.ReferenceIdeal
import proofs.«416651_j43052752175267_3_alg».proof.Proof.Gen.Pre_any_inputs
import proofs.«416651_j43052752175267_3_alg».proof.Proof.Gen.ReferenceIdeal.Run
import proofs.«416651_j43052752175267_3_alg».proof.Proof.Gen.ReferenceIdeal.Read
import proofs.«416651_j43052752175267_3_alg».proof.Proof.KernelHist
import proofs.«416651_j43052752175267_3_alg».proof.Proof.RefHist
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the histogram of the token matrix: the kernel by its
    frame run read block by block, the reference by its run read stage by stage, where the precondition makes every
    token non-negative so that the reference's index is the token itself. -/
theorem algebraic : Cert.algebraic_KernelIdeal_ReferenceIdeal := by
  intro m ρ m' ρ' hpre hagree
  refine ⟨fun c => Cert.Hist.hist (m ((c.tc : Thread Cert.KernelIdeal.nD Cert.KernelIdeal.τ).loc Cert.KernelIdeal.main_arg0)),
    Cert.KernelHist.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, (hagree c).1]
  exact Cert.RefHist.ref_eq_hist _ (Cert.RefHist.nonneg_of_pre _ _ (hpre c))

theorem claim : Cert.Claim := ⟨Cert.Kernel.Gen.facts, Cert.KernelIdeal.Gen.facts, Cert.ReferenceIdeal.Gen.facts, Cert.Pre_any_inputs.Gen.facts,
  frame_kernel, frame_kernel_ideal, frame_reference_ideal, trivial, algebraic⟩

end Cert.Proof

end
